-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64 : Shape := ⟨1, ![64]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : FVec F S100000x64 .f32) (main_arg2 : FVec F S100000x64 .f32) (main_arg3 : FVec F S1600000 .f32) (main_arg4 : FVec F S64 .f32) (main_arg5 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg4 main_v13 main_v16
-- ==== Kernel.lean ====
abbrev S100000x64 : Shape := ⟨2, ![100000, 64]⟩
abbrev S1600000 : Shape := ⟨1, ![1600000]⟩
abbrev S64 : Shape := ⟨1, ![64]⟩
abbrev S2x1600000 : Shape := ⟨2, ![2, 1600000]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1600000x2 : Shape := ⟨2, ![1600000, 2]⟩
abbrev S1x64 : Shape := ⟨2, ![1, 64]⟩
abbrev S4000x64 : Shape := ⟨2, ![4000, 64]⟩
abbrev S4000x2 : Shape := ⟨2, ![4000, 2]⟩
abbrev S4000x1 : Shape := ⟨2, ![4000, 1]⟩
abbrev S2000x64 : Shape := ⟨2, ![2000, 64]⟩

abbrev nBuf : Space → Nat
  | .hbm => 83
  | .vmem => 23
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S100000x64, .f32⟩
  | .hbm, ⟨3, _⟩ => ⟨S1600000, .f32⟩
  | .hbm, ⟨4, _⟩ => ⟨S64, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000, .f32⟩
  | .hbm, ⟨66, _⟩ => ⟨S1600000, .f32⟩
  | .hbm, ⟨67, _⟩ => ⟨S1600000, .f32⟩
  | .hbm, ⟨68, _⟩ => ⟨S1600000x1, .f32⟩
  | .hbm, ⟨69, _⟩ => ⟨S1600000x1, .f32⟩
  | .hbm, ⟨70, _⟩ => ⟨S1600000x2, .f32⟩
  | .hbm, ⟨71, _⟩ => ⟨S1x64, .f32⟩
  | .hbm, ⟨72, _⟩ => ⟨S1600000x64, .f32⟩
  | .hbm, ⟨73, _⟩ => ⟨S1600000x64, .f32⟩
  | .hbm, ⟨74, _⟩ => ⟨S_, .f32⟩
  | .hbm, ⟨75, _⟩ => ⟨S100000x64, .f32⟩
  | .hbm, ⟨76, _⟩ => ⟨S1600000x1, .i32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S1600000x1, .i32⟩
  | .hbm, ⟨81, _⟩ => ⟨S100000x64, .f32⟩
  | .hbm, ⟨82, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x2, .f32⟩
  | .local _ .vmem, ⟨5, _⟩ => ⟨S4000x2, .f32⟩
  | .local _ .vmem, ⟨6, _⟩ => ⟨S1x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_c_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_10 : Ref sig .tc := ⟨.hbm, 57, rfl⟩
abbrev main_v37 : Ref sig .tc := ⟨.hbm, 58, rfl⟩
abbrev main_v38 : Ref sig .tc := ⟨.hbm, 59, rfl⟩
abbrev main_c_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50_0 : Ref sig .tc := ⟨.hbm, 72, rfl⟩
abbrev main_v50_1 : Ref sig .tc := ⟨.hbm, 73, rfl⟩
abbrev main_cst_12 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  concatenates_S1600000x1_S1600000x1_S1600000x2_d1 : Shape.Concatenates [S1600000x1, S1600000x1] S1600000x2 1
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  slices_S4000x2_o0_0_S4000x1 : S4000x2.Slices ![0, 0] S4000x1
  slices_S4000x2_o0_1_S4000x1 : S4000x2.Slices ![0, 1] S4000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S4000x1_S4000x64 : S4000x1.Broadcasts S4000x64
  broadcasts_S1x64_S4000x64 : S1x64.Broadcasts S4000x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1600000x64.size a
  hwx0_0 : ∀ i : grid0.Coords, EltTy.bits .f32 = 32 ∨ (Rect.block (s := S1600000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1600000x64.size a
  hwx0_1 : ∀ i : grid0.Coords, EltTy.bits .f32 = 32 ∨ (Rect.block (s := S1600000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x2.size a ≤ S1600000x2.size a
  hwx0_2 : ∀ i : grid0.Coords, EltTy.bits .f32 = 32 ∨ (Rect.block (s := S1600000x2) S4000x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S1600000x64.size a
  hwx0_4 : ∀ i : grid0.Coords, EltTy.bits .f32 = 32 ∨ (Rect.block (s := S1600000x64) S4000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S1600000x64.size a
  hwx0_5 : ∀ i : grid0.Coords, EltTy.bits .f32 = 32 ∨ (Rect.block (s := S1600000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v22) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S4000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v49) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v50_0) S4000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v50_1) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S2000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v57) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64 : Shape := ⟨1, ![64]⟩
abbrev S2x1600000 : Shape := ⟨2, ![2, 1600000]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 100
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S100000x64, .f32⟩
  | .hbm, ⟨3, _⟩ => ⟨S1600000, .f32⟩
  | .hbm, ⟨4, _⟩ => ⟨S64, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S1600000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000, .f32⟩
  | .hbm, ⟨58, _⟩ => ⟨S1600000, .f32⟩
  | .hbm, ⟨59, _⟩ => ⟨S1600000x1, .f32⟩
  | .hbm, ⟨60, _⟩ => ⟨S1x64, .f32⟩
  | .hbm, ⟨61, _⟩ => ⟨S1600000x64, .f32⟩
  | .hbm, ⟨62, _⟩ => ⟨S1600000x64, .f32⟩
  | .hbm, ⟨63, _⟩ => ⟨S1600000x64, .f32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000, .f32⟩
  | .hbm, ⟨78, _⟩ => ⟨S1600000, .f32⟩
  | .hbm, ⟨79, _⟩ => ⟨S1600000x1, .f32⟩
  | .hbm, ⟨80, _⟩ => ⟨S1x64, .f32⟩
  | .hbm, ⟨81, _⟩ => ⟨S1600000x64, .f32⟩
  | .hbm, ⟨82, _⟩ => ⟨S1600000x64, .f32⟩
  | .hbm, ⟨83, _⟩ => ⟨S1600000x64, .f32⟩
  | .hbm, ⟨84, _⟩ => ⟨S1600000x64, .f32⟩
  | .hbm, ⟨85, _⟩ => ⟨S_, .f32⟩
  | .hbm, ⟨86, _⟩ => ⟨S100000x64, .f32⟩
  | .hbm, ⟨87, _⟩ => ⟨S1600000x1, .i32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S_, .f32⟩
  | .hbm, ⟨97, _⟩ => ⟨S_, .f32⟩
  | .hbm, ⟨98, _⟩ => ⟨S100000x64, .f32⟩
  | .hbm, ⟨99, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_c_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_call1_v0 : Ref sig .tc := ⟨.hbm, 97, rfl⟩
abbrev main_call1_v1 : Ref sig .tc := ⟨.hbm, 98, rfl⟩
abbrev main_v71 : Ref sig .tc := ⟨.hbm, 99, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1600000x1_S1600000x64_0_1 : S1600000x1.BroadcastsInDim S1600000x64 (![0, 1] : Fin 2 → Fin S1600000x64.rank)
  bcast_S1x64_S1600000x64_0_1 : S1x64.BroadcastsInDim S1600000x64 (![0, 1] : Fin 2 → Fin S1600000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.EdgeRegion.lean ====
/-
  The first region: the per-edge messages. At every grid point the body reads a block of 4000 edges — the two
  gathered node rows, the two scale factors and the velocity row — and stores, for each of the two outputs, the
  product (scale · velocity) · (f at the destination − f at the source). Read at one entry this is a function of the
  edge and the feature only, so the 400 row blocks are the blocks of ONE function of the whole arrays; they tile the
  1 600 000 edges, so each output array ends holding that function.
-/
import proofs.«129164_j61005715472412_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Edge

open Cert.KernelIdeal Cert.KernelIdeal.Gen Idealize.ShloMosaic Idealize.ShloMosaic.TcCoe Idealize.SL.Sem
open Idealize.ShloMosaic.Pipeline (Dat)
open Idealize.ShloMosaic.ValueIdx

/-! ## One entry of the body's two stores -/

/-- A column of 4000 values spread over the 64 features reads, at (p, q), the column at p. -/
theorem col_spread (v : Vec Ideal S4000x1 .f32) (p : Fin 4000) (q : Fin 64) :
    broadcastTo S4000x64 v broadcasts_S4000x1_S4000x64 (ix2 p q) = v (ix2 p (0 : Fin 1)) := by
  refine broadcastTo_apply v _ (ix2 p q) (ix2 p (0 : Fin 1)) fun ax => ?_
  match ax with
  | ⟨0, _⟩ => rfl
  | ⟨1, _⟩ => rfl

/-- The first store at (p, q): (first scale of edge p · velocity q) · (destination row − source row). -/
theorem pay_in_apply (v0 v2 : Vec Ideal S4000x64 .f32) (v5 : Vec Ideal S4000x2 .f32) (v9 : Vec Ideal S1x64 .f32)
    (p : Fin 4000) (q : Fin 64) :
    k0_pay4 v0 v2 v5 v9 (ix2 p q)
      = (v5 (ix2 p (0 : Fin 2)) * v9 (ix2 (0 : Fin 1) q)) * (v0 (ix2 p q) - v2 (ix2 p q)) := by
  unfold k0_pay4 k0_pay1 k0_pay2 k0_pay3
  simp only [shapeCast_self]
  rw [mulf_apply, mulf_apply, subf_apply, col_spread, broadcastTo_1b_ab_apply,
    slice2_axis1_apply 0 v5 _ p (0 : Fin 1) (0 : Fin 2) rfl]

/-- The second store at (p, q): the same with the second scale of edge p. -/
theorem pay_out_apply (v0 v2 : Vec Ideal S4000x64 .f32) (v5 : Vec Ideal S4000x2 .f32) (v9 : Vec Ideal S1x64 .f32)
    (p : Fin 4000) (q : Fin 64) :
    k0_pay5 v0 v2 v5 v9 (ix2 p q)
      = (v5 (ix2 p (1 : Fin 2)) * v9 (ix2 (0 : Fin 1) q)) * (v0 (ix2 p q) - v2 (ix2 p q)) := by
  unfold k0_pay5 k0_pay1 k0_pay2 k0_pay3
  simp only [shapeCast_self]
  rw [mulf_apply, mulf_apply, subf_apply, col_spread, broadcastTo_1b_ab_apply,
    slice2_axis1_apply 1 v5 _ p (0 : Fin 1) (1 : Fin 2) rfl]

/-! ## Where the windows' blocks lie -/

/-- The index maps over the 400 points: every edge-shaped window is at row block t, the velocity row stays put. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The region at its entry contents `V` -/

variable (V : (c : Dev nD) → (b : Ref sig .tc) → Buf (Elt Ideal) ((c : Thread nD τ).loc b))

/-- Row p of block t is edge 4000·t + p. -/
def edgeOf (t : Fin cfg0.N) (p : Fin 4000) : Fin 1600000 :=
  ⟨4000 * t.val + p.val, by have h := t.isLt; have hN : cfg0.N = 400 := N_0; have := p.isLt; omega⟩

/-- The four arrays the region reads, at their literal shapes. -/
abbrev rowsSrc (c : Dev nD) : S1600000x64.Idx → EReal := V c main_v22
abbrev rowsDst (c : Dev nD) : S1600000x64.Idx → EReal := V c main_v29
abbrev scales (c : Dev nD) : S1600000x2.Idx → EReal := V c main_v48
abbrev velo (c : Dev nD) : S1x64.Idx → EReal := V c main_v49

/-- The message of edge e at feature q with the k-th of the edge's two scales, from the scales, the velocity row and
    the rows gathered at the edges' destinations and sources. -/
def msgAt (sc : S1600000x2.Idx → EReal) (ve : S1x64.Idx → EReal) (rd rs : S1600000x64.Idx → EReal)
    (k : Fin 2) (e : Fin 1600000) (q : Fin 64) : EReal :=
  (sc (ix2 e k) * ve (ix2 (0 : Fin 1) q)) * (rd (ix2 e q) - rs (ix2 e q))

/-- The whole message array for scale k. -/
def msgArr (sc : S1600000x2.Idx → EReal) (ve : S1x64.Idx → EReal) (rd rs : S1600000x64.Idx → EReal) (k : Fin 2) :
    S1600000x64.Idx → EReal :=
  fun i => msgAt sc ve rd rs k ⟨(i 0).val, idx2_lt0 i⟩ ⟨(i 1).val, idx2_lt1 i⟩

theorem msgArr_ix2 (sc : S1600000x2.Idx → EReal) (ve : S1x64.Idx → EReal) (rd rs : S1600000x64.Idx → EReal) (k : Fin 2)
    (e : Fin 1600000) (q : Fin 64) : msgArr sc ve rd rs k (ix2 e q) = msgAt sc ve rd rs k e q := rfl

/-- Each window's block at point t, read at (p, q). -/
theorem blk_src (c : Dev nD) (t : Fin cfg0.N) (p : Fin 4000) (q : Fin 64) :
    (iblk0 V c 0 t : S4000x64.Idx → EReal) (ix2 p q) = rowsSrc V c (ix2 (edgeOf t p) q) := by
  obtain ⟨e0, e1, -⟩ := idx_facts t
  unfold iblk0
  rw [View.read_apply]
  show V c main_v22 _ = V c main_v22 _
  refine congrArg _ (Shape.idx_ext₂ ?_ ?_)
  · show win0_0.index t (0 : Fin 2) * 4000 + 1 * p.val = 4000 * t.val + p.val; omega
  · show win0_0.index t (1 : Fin 2) * 64 + 1 * q.val = q.val; omega

theorem blk_dst (c : Dev nD) (t : Fin cfg0.N) (p : Fin 4000) (q : Fin 64) :
    (iblk0 V c 1 t : S4000x64.Idx → EReal) (ix2 p q) = rowsDst V c (ix2 (edgeOf t p) q) := by
  obtain ⟨-, -, e0, e1, -⟩ := idx_facts t
  unfold iblk0
  rw [View.read_apply]
  show V c main_v29 _ = V c main_v29 _
  refine congrArg _ (Shape.idx_ext₂ ?_ ?_)
  · show win0_1.index t (0 : Fin 2) * 4000 + 1 * p.val = 4000 * t.val + p.val; omega
  · show win0_1.index t (1 : Fin 2) * 64 + 1 * q.val = q.val; omega

theorem blk_scales (c : Dev nD) (t : Fin cfg0.N) (p : Fin 4000) (k : Fin 2) :
    (iblk0 V c 2 t : S4000x2.Idx → EReal) (ix2 p k) = scales V c (ix2 (edgeOf t p) k) := by
  obtain ⟨-, -, -, -, e0, e1, -⟩ := idx_facts t
  unfold iblk0
  rw [View.read_apply]
  show V c main_v48 _ = V c main_v48 _
  refine congrArg _ (Shape.idx_ext₂ ?_ ?_)
  · show win0_2.index t (0 : Fin 2) * 4000 + 1 * p.val = 4000 * t.val + p.val; omega
  · show win0_2.index t (1 : Fin 2) * 2 + 1 * k.val = k.val; omega

theorem blk_velo (c : Dev nD) (t : Fin cfg0.N) (u : Fin 1) (q : Fin 64) :
    (iblk0 V c 3 t : S1x64.Idx → EReal) (ix2 u q) = velo V c (ix2 (0 : Fin 1) q) := by
  obtain ⟨-, -, -, -, -, -, e0, e1, -⟩ := idx_facts t
  unfold iblk0
  rw [View.read_apply]
  show V c main_v49 _ = V c main_v49 _
  refine congrArg _ (Shape.idx_ext₂ ?_ ?_)
  · show win0_3.index t (0 : Fin 2) * 1 + 1 * u.val = 0; have := u.isLt; omega
  · show win0_3.index t (1 : Fin 2) * 64 + 1 * q.val = q.val; omega

theorem hz : (![0, 0] : Fin 2 → Nat) = fun _ => 0 := funext fun a => by fin_cases a <;> rfl

/-- Point t writes back, to the first output's array, block t of the message array with the first scale. -/
theorem flushed_in (c : Dev nD) (t : Fin cfg0.N) :
    (dat0 V c).flushed 4 t = ((cfg0.win 4).blk t).view.read (Elt Ideal) (msgArr (scales V c) (velo V c) (rowsDst V c) (rowsSrc V c) 0) := by
  show (cfg0.win 4).cut (grid0.coords t) ((dat0 V c).after 4 t) = _
  rw [after0_4]
  unfold out0_4
  rw [View.canon_unit_zero hz]
  simp only [View.ld_unit_zero (S := S4000x64) hz, View.ld_unit_zero (S := S4000x2) hz, View.ld_unit_zero (S := S1x64) hz]
  obtain ⟨-, -, -, -, -, -, -, -, e0, e1, -⟩ := idx_facts t
  funext j
  obtain ⟨p, q, rfl⟩ : ∃ (p : Fin 4000) (q : Fin 64), j = ix2 p q := ⟨j 0, j 1, eq_ix2 j⟩
  have hemb : ((cfg0.win 4).blk t).view.emb (ix2 p q) = (ix2 (edgeOf t p) q : S1600000x64.Idx) := by
    refine Shape.idx_ext₂ ?_ ?_
    · show win0_4.index t (0 : Fin 2) * 4000 + 1 * p.val = 4000 * t.val + p.val; omega
    · show win0_4.index t (1 : Fin 2) * 64 + 1 * q.val = q.val; omega
  show k0_pay4 (iblk0 V c 1 t) (iblk0 V c 0 t) (iblk0 V c 2 t) (iblk0 V c 3 t) (ix2 p q) = msgArr (scales V c) (velo V c) (rowsDst V c) (rowsSrc V c) 0 (((cfg0.win 4).blk t).view.emb (ix2 p q))
  rw [hemb, msgArr_ix2]
  refine (pay_in_apply _ _ _ _ p q).trans ?_
  rw [blk_dst V c t p q, blk_src V c t p q, blk_scales V c t p 0, blk_velo V c t 0 q]
  rfl

/-- Point t writes back, to the second output's array, block t of the message array with the second scale. -/
theorem flushed_out (c : Dev nD) (t : Fin cfg0.N) :
    (dat0 V c).flushed 5 t = ((cfg0.win 5).blk t).view.read (Elt Ideal) (msgArr (scales V c) (velo V c) (rowsDst V c) (rowsSrc V c) 1) := by
  show (cfg0.win 5).cut (grid0.coords t) ((dat0 V c).after 5 t) = _
  rw [after0_5]
  unfold out0_5
  rw [View.canon_unit_zero hz]
  simp only [View.ld_unit_zero (S := S4000x64) hz, View.ld_unit_zero (S := S4000x2) hz, View.ld_unit_zero (S := S1x64) hz]
  obtain ⟨-, -, -, -, -, -, -, -, -, -, e0, e1⟩ := idx_facts t
  funext j
  obtain ⟨p, q, rfl⟩ : ∃ (p : Fin 4000) (q : Fin 64), j = ix2 p q := ⟨j 0, j 1, eq_ix2 j⟩
  have hemb : ((cfg0.win 5).blk t).view.emb (ix2 p q) = (ix2 (edgeOf t p) q : S1600000x64.Idx) := by
    refine Shape.idx_ext₂ ?_ ?_
    · show win0_5.index t (0 : Fin 2) * 4000 + 1 * p.val = 4000 * t.val + p.val; omega
    · show win0_5.index t (1 : Fin 2) * 64 + 1 * q.val = q.val; omega
  show k0_pay5 (iblk0 V c 1 t) (iblk0 V c 0 t) (iblk0 V c 2 t) (iblk0 V c 3 t) (ix2 p q) = msgArr (scales V c) (velo V c) (rowsDst V c) (rowsSrc V c) 1 (((cfg0.win 5).blk t).view.emb (ix2 p q))
  rw [hemb, msgArr_ix2]
  refine (pay_out_apply _ _ _ _ p q).trans ?_
  rw [blk_dst V c t p q, blk_src V c t p q, blk_scales V c t p 1, blk_velo V c t 0 q]
  rfl

/-! ## The row blocks tile the edges -/

/-- An index is in point t's block of an output iff each coordinate is in the block's range on its axis. -/
theorem mem_blk_in (t : Fin cfg0.N) (i : S1600000x64.Idx) :
    i ∈ ((cfg0.win 4).blk t).view.set ↔ ∀ a : Fin 2, win0_4.index t a * S4000x64.size a ≤ (i a).val ∧ (i a).val < win0_4.index t a * S4000x64.size a + S4000x64.size a := by
  show i ∈ ((View.whole main_v50_0).slice (win0_4.rect t)).set ↔ _
  rw [View.set_slice_whole, Rect.mem_set_unit]
  exact Iff.rfl

theorem mem_blk_out (t : Fin cfg0.N) (i : S1600000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_v50_1).slice (win0_5.rect t)).set ↔ _
  rw [View.set_slice_whole, Rect.mem_set_unit]
  exact Iff.rfl

/-- The point whose block holds edge row r is r / 4000. -/
def pointOf (i : S1600000x64.Idx) : Fin cfg0.N :=
  ⟨(i 0).val / 4000, by have h : (i 0).val < 1600000 := idx2_lt0 i; have hN : cfg0.N = 400 := N_0; omega⟩

theorem cover_in (i : S1600000x64.Idx) : ∃ t : Fin cfg0.N, (cfg0.win 4).flush t = true ∧ i ∈ ((cfg0.win 4).blk t).view.set := by
  refine ⟨pointOf i, flush0_4 _, ?_⟩
  obtain ⟨-, -, -, -, -, -, -, -, e0, e1, -⟩ := idx_facts (pointOf i)
  have ht : (pointOf i).val = (i 0).val / 4000 := rfl
  have h1 : (i 1).val < 64 := idx2_lt1 i
  rw [mem_blk_in]
  intro a
  match a with
  | ⟨0, _⟩ => show win0_4.index (pointOf i) (0 : Fin 2) * 4000 ≤ (i 0).val ∧ (i 0).val < win0_4.index (pointOf i) (0 : Fin 2) * 4000 + 4000; omega
  | ⟨1, _⟩ => show win0_4.index (pointOf i) (1 : Fin 2) * 64 ≤ (i 1).val ∧ (i 1).val < win0_4.index (pointOf i) (1 : Fin 2) * 64 + 64; omega

theorem cover_out (i : S1600000x64.Idx) : ∃ t : Fin cfg0.N, (cfg0.win 5).flush t = true ∧ i ∈ ((cfg0.win 5).blk t).view.set := by
  refine ⟨pointOf i, flush0_5 _, ?_⟩
  obtain ⟨-, -, -, -, -, -, -, -, -, -, e0, e1⟩ := idx_facts (pointOf i)
  have ht : (pointOf i).val = (i 0).val / 4000 := rfl
  have h1 : (i 1).val < 64 := idx2_lt1 i
  rw [mem_blk_out]
  intro a
  match a with
  | ⟨0, _⟩ => show win0_5.index (pointOf i) (0 : Fin 2) * 4000 ≤ (i 0).val ∧ (i 0).val < win0_5.index (pointOf i) (0 : Fin 2) * 4000 + 4000; omega
  | ⟨1, _⟩ => show win0_5.index (pointOf i) (1 : Fin 2) * 64 ≤ (i 1).val ∧ (i 1).val < win0_5.index (pointOf i) (1 : Fin 2) * 64 + 64; omega

/-! ## The two output arrays after the region -/

/-- The first output array ends holding the messages with the first scale. -/
theorem final_in (c : Dev nD) : (dat0 V c).arrAt 4 cfg0.N = msgArr (scales V c) (velo V c) (rowsDst V c) (rowsSrc V c) 0 :=
  (dat0 V c).arrAt_eq_of_cover 4 (msgArr (scales V c) (velo V c) (rowsDst V c) (rowsSrc V c) 0) (fun t _ => flushed_in V c t) cover_in

/-- The second output array ends holding the messages with the second scale. -/
theorem final_out (c : Dev nD) : (dat0 V c).arrAt 5 cfg0.N = msgArr (scales V c) (velo V c) (rowsDst V c) (rowsSrc V c) 1 :=
  (dat0 V c).arrAt_eq_of_cover 5 (msgArr (scales V c) (velo V c) (rowsDst V c) (rowsSrc V c) 1) (fun t _ => flushed_out V c t) cover_out

end Cert.KernelIdeal.Edge

end
-- ==== Proof.NodeRegion.lean ====
/-
  The second region: the node update. At every grid point the body reads a block of 2000 nodes of five arrays — the
  distribution f, the inflow, the outflow, the collision term and the source term — and stores
  max(0, max(0, f) − c·(((outflow − inflow) − collision) − source)), c the shared step constant. Entry by entry this
  is a function of the node and the feature only, so the 50 row blocks are the blocks of ONE function of the whole
  arrays; they tile the 100 000 nodes, so the output array ends holding that function.
-/
import proofs.«129164_j61005715472412_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Node

open Cert.KernelIdeal Cert.KernelIdeal.Gen Idealize.ShloMosaic Idealize.ShloMosaic.TcCoe Idealize.SL.Sem
open Idealize.ShloMosaic.Pipeline (Dat)
open Idealize.ShloMosaic.ValueIdx

/-! ## One entry of the body's store -/

/-- The update of one entry from the five values read there. -/
def upd (f inflow outflow coll src : EReal) : EReal :=
  max (Ideal.ofBits .f32 0x00000000#32)
    (max (Ideal.ofBits .f32 0x00000000#32) f
      - Ideal.ofBits .f32 0x3DCCCCCD#32 * (((outflow - inflow) - coll) - src))

/-- The store at an index is the update of the five blocks' entries there. -/
theorem pay_apply (v0 v3 v5 v8 v10 : Vec Ideal S2000x64 .f32) (y : S2000x64.Idx) :
    k1_pay1 v0 v3 v5 v8 v10 y = upd (v0 y) (v5 y) (v3 y) (v8 y) (v10 y) := by
  unfold k1_pay1
  simp only [shapeCast_self]
  rfl

/-! ## Where the windows' blocks lie -/

/-- The index maps over the 50 points: every window is at row block t. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-! ## The region at its entry contents `V` -/

variable (V : (c : Dev nD) → (b : Ref sig .tc) → Buf (Elt Ideal) ((c : Thread nD τ).loc b))

/-- The five arrays the region reads, at their literal shape. -/
abbrev distr (c : Dev nD) : S100000x64.Idx → EReal := V c main_arg0
abbrev inflow (c : Dev nD) : S100000x64.Idx → EReal := V c main_v53
abbrev outflow (c : Dev nD) : S100000x64.Idx → EReal := V c main_v56
abbrev collision (c : Dev nD) : S100000x64.Idx → EReal := V c main_arg1
abbrev source (c : Dev nD) : S100000x64.Idx → EReal := V c main_arg2

/-- The updated distribution, entry by entry, from the five arrays. -/
def updArr (f infl outfl coll src : S100000x64.Idx → EReal) : S100000x64.Idx → EReal :=
  fun i => upd (f i) (infl i) (outfl i) (coll i) (src i)

/-- Every window's block at point t sits where the output's block does. -/
theorem emb_eq (t : Fin cfg1.N) (j : S2000x64.Idx) :
    ((cfg1.win 0).blk t).view.emb j = ((cfg1.win 5).blk t).view.emb j
    ∧ ((cfg1.win 1).blk t).view.emb j = ((cfg1.win 5).blk t).view.emb j
    ∧ ((cfg1.win 2).blk t).view.emb j = ((cfg1.win 5).blk t).view.emb j
    ∧ ((cfg1.win 3).blk t).view.emb j = ((cfg1.win 5).blk t).view.emb j
    ∧ ((cfg1.win 4).blk t).view.emb j = ((cfg1.win 5).blk t).view.emb j := by
  obtain ⟨a0, a1, b0, b1, c0, c1, d0, d1, e0, e1, f0, f1⟩ := idx_facts t
  refine ⟨Shape.idx_ext₂ ?_ ?_, Shape.idx_ext₂ ?_ ?_, Shape.idx_ext₂ ?_ ?_, Shape.idx_ext₂ ?_ ?_, Shape.idx_ext₂ ?_ ?_⟩
  · show win1_0.index t (0 : Fin 2) * 2000 + 1 * (j 0).val = win1_5.index t (0 : Fin 2) * 2000 + 1 * (j 0).val; omega
  · show win1_0.index t (1 : Fin 2) * 64 + 1 * (j 1).val = win1_5.index t (1 : Fin 2) * 64 + 1 * (j 1).val; omega
  · show win1_1.index t (0 : Fin 2) * 2000 + 1 * (j 0).val = win1_5.index t (0 : Fin 2) * 2000 + 1 * (j 0).val; omega
  · show win1_1.index t (1 : Fin 2) * 64 + 1 * (j 1).val = win1_5.index t (1 : Fin 2) * 64 + 1 * (j 1).val; omega
  · show win1_2.index t (0 : Fin 2) * 2000 + 1 * (j 0).val = win1_5.index t (0 : Fin 2) * 2000 + 1 * (j 0).val; omega
  · show win1_2.index t (1 : Fin 2) * 64 + 1 * (j 1).val = win1_5.index t (1 : Fin 2) * 64 + 1 * (j 1).val; omega
  · show win1_3.index t (0 : Fin 2) * 2000 + 1 * (j 0).val = win1_5.index t (0 : Fin 2) * 2000 + 1 * (j 0).val; omega
  · show win1_3.index t (1 : Fin 2) * 64 + 1 * (j 1).val = win1_5.index t (1 : Fin 2) * 64 + 1 * (j 1).val; omega
  · show win1_4.index t (0 : Fin 2) * 2000 + 1 * (j 0).val = win1_5.index t (0 : Fin 2) * 2000 + 1 * (j 0).val; omega
  · show win1_4.index t (1 : Fin 2) * 64 + 1 * (j 1).val = win1_5.index t (1 : Fin 2) * 64 + 1 * (j 1).val; omega

theorem hz : (![0, 0] : Fin 2 → Nat) = fun _ => 0 := funext fun a => by fin_cases a <;> rfl

/-- Point t writes back block t of the updated distribution. -/
theorem flushed_upd (c : Dev nD) (t : Fin cfg1.N) :
    (dat1 V c).flushed 5 t = ((cfg1.win 5).blk t).view.read (Elt Ideal) (updArr (distr V c) (inflow V c) (outflow V c) (collision V c) (source V c)) := by
  show (cfg1.win 5).cut (grid1.coords t) ((dat1 V c).after 5 t) = _
  rw [after1_5]
  unfold out1_5
  rw [View.canon_unit_zero hz]
  simp only [View.ld_unit_zero (S := S2000x64) hz]
  funext j
  obtain ⟨h0, h1, h2, h3, h4⟩ := emb_eq t j
  refine (pay_apply _ _ _ _ _ j).trans ?_
  show upd (V c main_arg0 (((cfg1.win 0).blk t).view.emb j)) (V c main_v53 (((cfg1.win 1).blk t).view.emb j))
      (V c main_v56 (((cfg1.win 2).blk t).view.emb j)) (V c main_arg1 (((cfg1.win 3).blk t).view.emb j))
      (V c main_arg2 (((cfg1.win 4).blk t).view.emb j))
    = upd (V c main_arg0 (((cfg1.win 5).blk t).view.emb j)) (V c main_v53 (((cfg1.win 5).blk t).view.emb j))
      (V c main_v56 (((cfg1.win 5).blk t).view.emb j)) (V c main_arg1 (((cfg1.win 5).blk t).view.emb j))
      (V c main_arg2 (((cfg1.win 5).blk t).view.emb j))
  rw [h0, h1, h2, h3, h4]

/-! ## The row blocks tile the nodes -/

/-- An index is in point t's block of the output iff each coordinate is in the block's range on its axis. -/
theorem mem_blk (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v57).slice (win1_5.rect t)).set ↔ _
  rw [View.set_slice_whole, Rect.mem_set_unit]
  exact Iff.rfl

/-- The point whose block holds node row r is r / 2000. -/
def pointOf (i : S100000x64.Idx) : Fin cfg1.N :=
  ⟨(i 0).val / 2000, by have h : (i 0).val < 100000 := idx2_lt0 i; have hN : cfg1.N = 50 := N_1; omega⟩

theorem cover (i : S100000x64.Idx) : ∃ t : Fin cfg1.N, (cfg1.win 5).flush t = true ∧ i ∈ ((cfg1.win 5).blk t).view.set := by
  refine ⟨pointOf i, flush1_5 _, ?_⟩
  obtain ⟨-, -, -, -, -, -, -, -, -, -, e0, e1⟩ := idx_facts (pointOf i)
  have ht : (pointOf i).val = (i 0).val / 2000 := rfl
  have h1 : (i 1).val < 64 := idx2_lt1 i
  rw [mem_blk]
  intro a
  match a with
  | ⟨0, _⟩ => show win1_5.index (pointOf i) (0 : Fin 2) * 2000 ≤ (i 0).val ∧ (i 0).val < win1_5.index (pointOf i) (0 : Fin 2) * 2000 + 2000; omega
  | ⟨1, _⟩ => show win1_5.index (pointOf i) (1 : Fin 2) * 64 ≤ (i 1).val ∧ (i 1).val < win1_5.index (pointOf i) (1 : Fin 2) * 64 + 64; omega

/-! ## The output array after the region -/

/-- The output array ends holding the updated distribution. -/
theorem final_upd (c : Dev nD) : (dat1 V c).arrAt 5 cfg1.N = updArr (distr V c) (inflow V c) (outflow V c) (collision V c) (source V c) :=
  (dat1 V c).arrAt_eq_of_cover 5 (updArr (distr V c) (inflow V c) (outflow V c) (collision V c) (source V c)) (fun t _ => flushed_upd V c t) cover

end Cert.KernelIdeal.Node

end
-- ==== Proof.KernelHost.lean ====
/-
  The kernel program's host operations, read back. Before the first region the host computes, from the arguments, the
  rows of the clipped distribution gathered at each edge's source and destination, the two per-edge scales (the edge
  weight over the out-degree, resp. the in-degree, of the edge's source) packed side by side, and the velocity row;
  between the regions it scatter-adds the two message arrays into the nodes. Each is the same operation, on the same
  operands, as a stage of the reference. The host operations come in four stretches; each is read at an arbitrary
  memory first, and the stretches are then composed from the launch memory on.
-/
import proofs.«129164_j61005715472412_1_alg».proof.Proof.Gen.KernelIdeal.Frame
import proofs.«129164_j61005715472412_1_alg».proof.Proof.Gen.ReferenceIdeal.Read
import Idealize.ShloMosaic.Lib.StableHlo.Run
import Idealize.ShloMosaic.PureOps.Ideal

set_option maxRecDepth 16384
set_option Elab.async false

noncomputable section

namespace Cert.KernelIdeal.Host

open Cert.KernelIdeal Cert.KernelIdeal.Gen Idealize.ShloMosaic Idealize.ShloMosaic.TcCoe Idealize.SL.Sem
open Idealize.ShloMosaic.StableHlo
open Cert.ReferenceIdeal.Read (val_main_v1 val_main_v3 val_main_v12 val_main_v14 val_main_v15 val_main_v22 val_main_v29 val_main_v38 val_main_v55)

/-- A node index below zero counts from the end. -/
def wrapIdx (ix : IVec S1600000 32) : IVec S1600000 32 :=
  select (cmpi .slt ix (broadcastInDim S1600000 ![] bcast_S_S1600000 (constantI S_ 32 0#32)))
    (addi ix (broadcastInDim S1600000 ![] bcast_S_S1600000 (constantI S_ 32 100000#32))) ix

/-- An array gathered row by row at the given nodes. -/
abbrev rowsAt (x : FVec Ideal S100000x64 .f32) (ix : IVec S1600000 32) : FVec Ideal S1600000x64 .f32 :=
  Host.gather gather_S100000x64_S1600000x1_S1600000x64_1_0_n_n_0_1_164 x (broadcastInDim S1600000x1 ![0] bcast_S1600000_S1600000x1_0 (wrapIdx ix))

/-- The edge weights over a per-node quantity read at the given nodes. -/
abbrev scaleBy (w : FVec Ideal S1600000 .f32) (deg : FVec Ideal S100000 .f32) (ix : IVec S1600000 32) : FVec Ideal S1600000 .f32 :=
  Host.divf w (Host.gather gather_S100000_S1600000x1_S1600000_n_0_n_n_0_1_1 deg (broadcastInDim S1600000x1 ![0] bcast_S1600000_S1600000x1_0 (wrapIdx ix)))

/-- Two per-edge columns side by side. -/
abbrev sideBySide (a b : FVec Ideal S1600000 .f32) : FVec Ideal S1600000x2 .f32 :=
  concatenate S1600000x2 1
    [⟨S1600000x1, broadcastInDim S1600000x1 ![0] bcast_S1600000_S1600000x1_0 a⟩,
     ⟨S1600000x1, broadcastInDim S1600000x1 ![0] bcast_S1600000_S1600000x1_0 b⟩]
    concatenates_S1600000x1_S1600000x1_S1600000x2_d1

/-- Two pairs of columns side by side agree when the columns do. -/
theorem cols_congr {A A' B B' : S1600000x1.Idx → Elt Ideal .f32} (hA : A = A') (hB : B = B') :
    concatenate S1600000x2 1 [⟨S1600000x1, A⟩, ⟨S1600000x1, B⟩] concatenates_S1600000x1_S1600000x1_S1600000x2_d1
      = concatenate S1600000x2 1 [⟨S1600000x1, A'⟩, ⟨S1600000x1, B'⟩] concatenates_S1600000x1_S1600000x1_S1600000x2_d1 := by
  subst hA hB; rfl

/-- An array bounded below by a scalar. -/
abbrev clipAt (b : FVec Ideal S_ .f32) (x : FVec Ideal S100000x64 .f32) : FVec Ideal S100000x64 .f32 :=
  maximumf (broadcastInDim S100000x64 ![] bcast_S_S100000x64 (id b)) x

/-- Per-edge rows added into the rows of the given nodes, from zero. -/
abbrev addInto (ix : IVec S1600000 32) (u : FVec Ideal S1600000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 ix) u

/-! ## Each stretch at an arbitrary memory `W` -/

section Stretches
variable (W : Valuation τ sig (Elt Ideal))

/-- The first stretch: the edges' sources and destinations, the two clamped degree arrays, the clip's bound. -/
theorem s0_src : StableHlo.after hostOps0 W (Proc.devRef .tc main_v1) = val_main_v1 (F := Ideal) (W (Proc.devRef .tc main_arg5)) := by
  after_results_simp <;> rfl
theorem s0_dst : StableHlo.after hostOps0 W (Proc.devRef .tc main_v3) = val_main_v3 (F := Ideal) (W (Proc.devRef .tc main_arg5)) := by
  after_results_simp <;> rfl
theorem s0_outdeg : StableHlo.after hostOps0 W (Proc.devRef .tc main_v12) = val_main_v12 (F := Ideal) (W (Proc.devRef .tc main_arg5)) := by
  after_results_simp <;> rfl
theorem s0_indeg : StableHlo.after hostOps0 W (Proc.devRef .tc main_v14) = val_main_v14 (F := Ideal) (W (Proc.devRef .tc main_arg5)) := by
  after_results_simp <;> rfl
theorem s0_bound : StableHlo.after hostOps0 W (Proc.devRef .tc main_cst_4) = constant (F := Ideal) S_ .f32 0x00000000#32 := by
  after_results_simp <;> rfl
theorem s0_keep0 : StableHlo.after hostOps0 W (Proc.devRef .tc main_arg0) = W (Proc.devRef .tc main_arg0) := by
  after_results_simp
theorem s0_keep3 : StableHlo.after hostOps0 W (Proc.devRef .tc main_arg3) = W (Proc.devRef .tc main_arg3) := by
  after_results_simp
theorem s0_keep4 : StableHlo.after hostOps0 W (Proc.devRef .tc main_arg4) = W (Proc.devRef .tc main_arg4) := by
  after_results_simp

/-- The second stretch: the clipped distribution. -/
theorem s1_clip : StableHlo.after hostOps0_1 W (Proc.devRef .tc main_v15)
    = clipAt (W (Proc.devRef .tc main_cst_4)) (W (Proc.devRef .tc main_arg0)) := by
  after_results_simp <;> rfl
theorem s1_keep_src : StableHlo.after hostOps0_1 W (Proc.devRef .tc main_v1) = W (Proc.devRef .tc main_v1) := by
  after_results_simp
theorem s1_keep_dst : StableHlo.after hostOps0_1 W (Proc.devRef .tc main_v3) = W (Proc.devRef .tc main_v3) := by
  after_results_simp
theorem s1_keep_outdeg : StableHlo.after hostOps0_1 W (Proc.devRef .tc main_v12) = W (Proc.devRef .tc main_v12) := by
  after_results_simp
theorem s1_keep_indeg : StableHlo.after hostOps0_1 W (Proc.devRef .tc main_v14) = W (Proc.devRef .tc main_v14) := by
  after_results_simp
theorem s1_keep3 : StableHlo.after hostOps0_1 W (Proc.devRef .tc main_arg3) = W (Proc.devRef .tc main_arg3) := by
  after_results_simp
theorem s1_keep4 : StableHlo.after hostOps0_1 W (Proc.devRef .tc main_arg4) = W (Proc.devRef .tc main_arg4) := by
  after_results_simp

/-- The third stretch: the four arrays the first region reads. -/
theorem s2_rows_src : StableHlo.after hostOps0_2 W (Proc.devRef .tc main_v22)
    = rowsAt (W (Proc.devRef .tc main_v15)) (W (Proc.devRef .tc main_v1)) := by
  after_results_simp <;> rfl
theorem s2_rows_dst : StableHlo.after hostOps0_2 W (Proc.devRef .tc main_v29)
    = rowsAt (W (Proc.devRef .tc main_v15)) (W (Proc.devRef .tc main_v3)) := by
  after_results_simp <;> rfl
theorem s2_scales : StableHlo.after hostOps0_2 W (Proc.devRef .tc main_v48)
    = sideBySide (scaleBy (W (Proc.devRef .tc main_arg3)) (W (Proc.devRef .tc main_v12)) (W (Proc.devRef .tc main_v1)))
        (scaleBy (W (Proc.devRef .tc main_arg3)) (W (Proc.devRef .tc main_v14)) (W (Proc.devRef .tc main_v1))) := by
  after_results_simp
  refine cols_congr ?_ ?_
  · after_results_simp <;> rfl
  · after_results_simp <;> rfl
theorem s2_velo : StableHlo.after hostOps0_2 W (Proc.devRef .tc main_v49) = shapeCast S1x64 (W (Proc.devRef .tc main_arg4)) shapeCasts_S64_S1x64 := by
  after_results_simp <;> rfl
theorem s2_keep_src : StableHlo.after hostOps0_2 W (Proc.devRef .tc main_v1) = W (Proc.devRef .tc main_v1) := by
  after_results_simp
theorem s2_keep_dst : StableHlo.after hostOps0_2 W (Proc.devRef .tc main_v3) = W (Proc.devRef .tc main_v3) := by
  after_results_simp

/-- The fourth stretch, between the regions: the messages added into their nodes. -/
theorem s3_inflow : StableHlo.after hostOps1 W (Proc.devRef .tc main_v53)
    = addInto (W (Proc.devRef .tc main_v3)) (W (Proc.devRef .tc main_v50_0)) := by
  after_results_simp <;> rfl
theorem s3_outflow : StableHlo.after hostOps1 W (Proc.devRef .tc main_v56)
    = addInto (W (Proc.devRef .tc main_v1)) (W (Proc.devRef .tc main_v50_1)) := by
  after_results_simp <;> rfl

end Stretches

/-! ## The stretches composed, from the launch memory on -/

section Composed
variable (m : (ℓ : Loc nD τ sig) → Buf (Elt Ideal) ℓ) (ρ : Dev nD → PrngReg)

/-- The six arguments as launched. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)

/-! After the first stretch. -/
theorem w1_src (c : Dev nD) : W1 m ρ c (Proc.devRef .tc main_v1) = val_main_v1 (F := Ideal) (a5 m c) := s0_src (W0 m ρ c)
theorem w1_dst (c : Dev nD) : W1 m ρ c (Proc.devRef .tc main_v3) = val_main_v3 (F := Ideal) (a5 m c) := s0_dst (W0 m ρ c)
theorem w1_outdeg (c : Dev nD) : W1 m ρ c (Proc.devRef .tc main_v12) = val_main_v12 (F := Ideal) (a5 m c) := s0_outdeg (W0 m ρ c)
theorem w1_indeg (c : Dev nD) : W1 m ρ c (Proc.devRef .tc main_v14) = val_main_v14 (F := Ideal) (a5 m c) := s0_indeg (W0 m ρ c)
theorem w1_bound (c : Dev nD) : W1 m ρ c (Proc.devRef .tc main_cst_4) = constant (F := Ideal) S_ .f32 0x00000000#32 := s0_bound (W0 m ρ c)
theorem w1_arg0 (c : Dev nD) : W1 m ρ c (Proc.devRef .tc main_arg0) = a0 m c := s0_keep0 (W0 m ρ c)
theorem w1_arg3 (c : Dev nD) : W1 m ρ c (Proc.devRef .tc main_arg3) = a3 m c := s0_keep3 (W0 m ρ c)
theorem w1_arg4 (c : Dev nD) : W1 m ρ c (Proc.devRef .tc main_arg4) = a4 m c := s0_keep4 (W0 m ρ c)

/-! After the second stretch. -/
theorem w2_clip (c : Dev nD) : W2 m ρ c (Proc.devRef .tc main_v15) = val_main_v15 (F := Ideal) (a0 m c) := by
  rw [show W2 m ρ c (Proc.devRef .tc main_v15) = _ from s1_clip (W1 m ρ c), w1_bound, w1_arg0]
  rfl
theorem w2_src (c : Dev nD) : W2 m ρ c (Proc.devRef .tc main_v1) = val_main_v1 (F := Ideal) (a5 m c) :=
  (s1_keep_src (W1 m ρ c)).trans (w1_src m ρ c)
theorem w2_dst (c : Dev nD) : W2 m ρ c (Proc.devRef .tc main_v3) = val_main_v3 (F := Ideal) (a5 m c) :=
  (s1_keep_dst (W1 m ρ c)).trans (w1_dst m ρ c)
theorem w2_outdeg (c : Dev nD) : W2 m ρ c (Proc.devRef .tc main_v12) = val_main_v12 (F := Ideal) (a5 m c) :=
  (s1_keep_outdeg (W1 m ρ c)).trans (w1_outdeg m ρ c)
theorem w2_indeg (c : Dev nD) : W2 m ρ c (Proc.devRef .tc main_v14) = val_main_v14 (F := Ideal) (a5 m c) :=
  (s1_keep_indeg (W1 m ρ c)).trans (w1_indeg m ρ c)
theorem w2_arg3 (c : Dev nD) : W2 m ρ c (Proc.devRef .tc main_arg3) = a3 m c := (s1_keep3 (W1 m ρ c)).trans (w1_arg3 m ρ c)
theorem w2_arg4 (c : Dev nD) : W2 m ρ c (Proc.devRef .tc main_arg4) = a4 m c := (s1_keep4 (W1 m ρ c)).trans (w1_arg4 m ρ c)

/-! ## What the first region is entered with -/

/-- Its first window's array is the reference's rows of the clipped distribution at the edges' sources. -/
theorem entry_src (c : Dev nD) : V3 m ρ c main_v22 = val_main_v29 (F := Ideal) (a0 m c) (a5 m c) := by
  rw [show V3 m ρ c main_v22 = _ from s2_rows_src (W2 m ρ c), w2_clip, w2_src]
  rfl
/-- Its second window's array is the reference's rows at the edges' destinations. -/
theorem entry_dst (c : Dev nD) : V3 m ρ c main_v29 = val_main_v22 (F := Ideal) (a0 m c) (a5 m c) := by
  rw [show V3 m ρ c main_v29 = _ from s2_rows_dst (W2 m ρ c), w2_clip, w2_dst]
  rfl
/-- Its third window's array is the reference's two per-edge scales side by side. -/
theorem entry_scales (c : Dev nD) : V3 m ρ c main_v48
    = sideBySide (val_main_v38 (F := Ideal) (a3 m c) (a5 m c)) (val_main_v55 (F := Ideal) (a3 m c) (a5 m c)) := by
  rw [show V3 m ρ c main_v48 = _ from s2_scales (W2 m ρ c), w2_arg3, w2_outdeg, w2_indeg, w2_src]
  rfl
/-- Its fourth window's array is the velocities as one row. -/
theorem entry_velo (c : Dev nD) : V3 m ρ c main_v49 = shapeCast S1x64 (a4 m c) shapeCasts_S64_S1x64 := by
  rw [show V3 m ρ c main_v49 = _ from s2_velo (W2 m ρ c), w2_arg4]

/-! ## Between the regions -/

theorem w4_src (c : Dev nD) : W4 m ρ c (Proc.devRef .tc main_v1) = val_main_v1 (F := Ideal) (a5 m c) :=
  (W4_of_ne m ρ c main_v1 (by decide)).trans ((s2_keep_src (W2 m ρ c)).trans (w2_src m ρ c))
theorem w4_dst (c : Dev nD) : W4 m ρ c (Proc.devRef .tc main_v3) = val_main_v3 (F := Ideal) (a5 m c) :=
  (W4_of_ne m ρ c main_v3 (by decide)).trans ((s2_keep_dst (W2 m ρ c)).trans (w2_dst m ρ c))
theorem w4_msg_in (c : Dev nD) : W4 m ρ c (Proc.devRef .tc main_v50_0) = (dat0 (V3 m ρ) c).arrAt 4 cfg0.N := W4_arr m ρ c 4
theorem w4_msg_out (c : Dev nD) : W4 m ρ c (Proc.devRef .tc main_v50_1) = (dat0 (V3 m ρ) c).arrAt 5 cfg0.N := W4_arr m ρ c 5

/-! ## What the second region is entered with -/

/-- The inflow: the first region's first output added into the edges' destinations. -/
theorem entry_inflow (c : Dev nD) : V5 m ρ c main_v53 = addInto (val_main_v3 (F := Ideal) (a5 m c)) ((dat0 (V3 m ρ) c).arrAt 4 cfg0.N) := by
  rw [show V5 m ρ c main_v53 = _ from s3_inflow (W4 m ρ c), w4_dst, w4_msg_in]
/-- The outflow: the first region's second output added into the edges' sources. -/
theorem entry_outflow (c : Dev nD) : V5 m ρ c main_v56 = addInto (val_main_v1 (F := Ideal) (a5 m c)) ((dat0 (V3 m ρ) c).arrAt 5 cfg0.N) := by
  rw [show V5 m ρ c main_v56 = _ from s3_outflow (W4 m ρ c), w4_src, w4_msg_out]
/-- The three arguments the second region reads are as launched: the second region's exit holds them as its entry did,
    and no stretch nor region writes an argument. -/
theorem entry_arg0 (c : Dev nD) : V5 m ρ c main_arg0 = a0 m c :=
  ((W6_arr m ρ c 0).trans (((dat1 (V5 m ρ) c).arrAt_in 0 rfl _).trans (A_eq1 (V5 m ρ) c 0))).symm.trans (W6_main_arg0 m ρ c)
theorem entry_arg1 (c : Dev nD) : V5 m ρ c main_arg1 = a1 m c :=
  ((W6_arr m ρ c 3).trans (((dat1 (V5 m ρ) c).arrAt_in 3 rfl _).trans (A_eq1 (V5 m ρ) c 3))).symm.trans (W6_main_arg1 m ρ c)
theorem entry_arg2 (c : Dev nD) : V5 m ρ c main_arg2 = a2 m c :=
  ((W6_arr m ρ c 4).trans (((dat1 (V5 m ρ) c).arrAt_in 4 rfl _).trans (A_eq1 (V5 m ρ) c 4))).symm.trans (W6_main_arg2 m ρ c)

end Composed

end Cert.KernelIdeal.Host

end
-- ==== Proof.RefSide.lean ====
/-
  The reference's side, read at one entry. Its per-edge message stage at (e, q) is
  (weight e / degree at the source of e · velocity q) · (f at the destination − f at the source): the scale is spread over
  the features and the velocities over the edges before the two products. Its last stage at a node entry is
  max(0, max(0, f) − c·(((outflow − inflow) − collision) − source)), the two flows being the scatter-added messages.
-/
import proofs.«129164_j61005715472412_1_alg».proof.Proof.Gen.ReferenceIdeal.Run
import proofs.«129164_j61005715472412_1_alg».proof.Proof.Gen.ReferenceIdeal.Read
import Idealize.ShloMosaic.Lib.ValueIdx

noncomputable section

namespace Cert.ReferenceIdeal.RefSide

open Cert.ReferenceIdeal Cert.ReferenceIdeal.Gen Cert.ReferenceIdeal.Read
open Idealize.ShloMosaic Idealize.SL.Sem Idealize.ShloMosaic.ValueIdx

variable (x0 x1 x2 : (⟨S100000x64, .f32⟩ : BufTy).Contents (Elt Ideal)) (x3 : (⟨S1600000, .f32⟩ : BufTy).Contents (Elt Ideal))
  (x4 : (⟨S64, .f32⟩ : BufTy).Contents (Elt Ideal)) (x5 : (⟨S2x1600000, .i32⟩ : BufTy).Contents (Elt Ideal))

/-- The edge's scale, spread over the features, is read back at the edge. -/
theorem idx_scale_in (e : Fin 1600000) (q : Fin 64) : idx_main_v39 (idx_main_v41 (ix2 e q)) = ix1 e :=
  funext fun a => by match a with | ⟨0, _⟩ => rfl
theorem idx_scale_out (e : Fin 1600000) (q : Fin 64) : idx_main_v56 (idx_main_v58 (ix2 e q)) = ix1 e :=
  funext fun a => by match a with | ⟨0, _⟩ => rfl
/-- The velocities, spread over the edges, are read back at the feature. -/
theorem idx_velo_in (e : Fin 1600000) (q : Fin 64) : idx_main_v40 (idx_main_v42 (ix2 e q)) = ix1 q :=
  funext fun a => by match a with | ⟨0, _⟩ => rfl
theorem idx_velo_out (e : Fin 1600000) (q : Fin 64) : idx_main_v57 (idx_main_v59 (ix2 e q)) = ix1 q :=
  funext fun a => by match a with | ⟨0, _⟩ => rfl

/-- The inflow messages at edge e, feature q. -/
theorem msg_in_apply (e : Fin 1600000) (q : Fin 64) :
    val_main_v44 (F := Ideal) x0 x3 x4 x5 (ix2 e q)
      = (val_main_v38 (F := Ideal) x3 x5 (ix1 e) * x4 (ix1 q))
        * (val_main_v22 (F := Ideal) x0 x5 (ix2 e q) - val_main_v29 (F := Ideal) x0 x5 (ix2 e q)) := by
  rw [val_main_v44_apply, val_main_v43_apply, val_main_v41_apply, val_main_v39_apply, val_main_v42_apply, val_main_v40_apply,
    val_main_v30_apply, idx_scale_in, idx_velo_in]
  rfl

/-- The outflow messages at edge e, feature q. -/
theorem msg_out_apply (e : Fin 1600000) (q : Fin 64) :
    val_main_v61 (F := Ideal) x0 x3 x4 x5 (ix2 e q)
      = (val_main_v55 (F := Ideal) x3 x5 (ix1 e) * x4 (ix1 q))
        * (val_main_v22 (F := Ideal) x0 x5 (ix2 e q) - val_main_v29 (F := Ideal) x0 x5 (ix2 e q)) := by
  rw [val_main_v61_apply, val_main_v60_apply, val_main_v58_apply, val_main_v56_apply, val_main_v59_apply, val_main_v57_apply,
    val_main_v30_apply, idx_scale_out, idx_velo_out]
  rfl

/-- The reference's result at a node entry. -/
theorem result_apply (i : S100000x64.Idx) :
    val_main_v71 (F := Ideal) x0 x1 x2 x3 x4 x5 i
      = max (Ideal.ofBits .f32 0x00000000#32)
          (max (Ideal.ofBits .f32 0x00000000#32) (x0 i)
            - Ideal.ofBits .f32 0x3DCCCCCD#32
              * (((val_main_v64 (F := Ideal) x0 x3 x4 x5 i - val_main_v47 (F := Ideal) x0 x3 x4 x5 i) - x1 i) - x2 i)) := by
  rw [val_main_v71_apply, val_main_call1_v1_apply, val_main_call1_v0_apply, val_main_cst_15_apply, val_main_v70_apply,
    val_main_v15_apply, val_main_call0_v1_apply, val_main_call0_v0_apply, val_main_cst_4_apply, val_main_v69_apply,
    val_main_v68_apply, val_main_cst_14_apply, val_main_v67_apply, val_main_v66_apply, val_main_v65_apply]
  rfl

end Cert.ReferenceIdeal.RefSide

end
-- ==== Proof.Bridge.lean ====
/-
  The two sides joined. The kernel program's result array is what its second region leaves; that region's five inputs
  are the distribution, the collision and the source terms as launched and the two flows the host scatter-adds from
  the first region's outputs; those outputs are, entry by entry, the reference's two message stages (the scale read
  out of the packed pair, the velocity out of its row, the gathered rows being the reference's own gathers), so the
  flows are the reference's flows and the node update, entry by entry, is the reference's last stage.
-/
import proofs.«129164_j61005715472412_1_alg».proof.Proof.KernelRunNamed
import proofs.«129164_j61005715472412_1_alg».proof.Proof.EdgeRegion
import proofs.«129164_j61005715472412_1_alg».proof.Proof.NodeRegion
import proofs.«129164_j61005715472412_1_alg».proof.Proof.KernelHost
import proofs.«129164_j61005715472412_1_alg».proof.Proof.RefSide
import Idealize.ShloMosaic.Lib.ValueLayout

set_option maxRecDepth 16384
set_option Elab.async false

noncomputable section

namespace Cert.KernelIdeal.Bridge

open Cert.KernelIdeal Cert.KernelIdeal.Gen Idealize.ShloMosaic Idealize.ShloMosaic.TcCoe Idealize.SL.Sem
open Idealize.ShloMosaic.ValueIdx
open Cert.KernelIdeal.Host (a0 a1 a2 a3 a4 a5 sideBySide addInto)
open Cert.ReferenceIdeal.Read (val_main_v1 val_main_v3 val_main_v22 val_main_v29 val_main_v38 val_main_v55 val_main_v44 val_main_v61
  val_main_v47 val_main_v64 val_main_v71)

/-! ## The packed scales and the velocity row, read at an entry -/

/-- A per-edge column reads the edge's value. -/
theorem col_apply (x : FVec Ideal S1600000 .f32) (e : Fin 1600000) (u : Fin 1) :
    broadcastInDim S1600000x1 ![0] bcast_S1600000_S1600000x1_0 x (ix2 e u) = x (ix1 e) := by
  refine broadcastInDim_apply _ bcast_S1600000_S1600000x1_0 x (ix2 e u) (ix1 e) fun a => ?_
  match a with
  | ⟨0, _⟩ => show e.val = if (1600000 : Nat) = 1 then 0 else e.val; rw [if_neg (by decide)]

/-- The first of two columns side by side. -/
theorem side_left (a b : FVec Ideal S1600000 .f32) (e : Fin 1600000) : sideBySide a b (ix2 e (0 : Fin 2)) = a (ix1 e) := by
  refine (concatenate_pair_apply_left (t := S1600000x2) (s₁ := S1600000x1) (s₂ := S1600000x1) (1 : Fin 2) _ _
    concatenates_S1600000x1_S1600000x1_S1600000x2_d1 (ix2 e (0 : Fin 2) : S1600000x2.Idx) rfl
    (ix2 e (0 : Fin 1) : S1600000x1.Idx) fun b => ?_).trans (col_apply a e 0)
  match b with
  | ⟨0, _⟩ => rfl
  | ⟨1, _⟩ => rfl

/-- The second of two columns side by side. -/
theorem side_right (a b : FVec Ideal S1600000 .f32) (e : Fin 1600000) : sideBySide a b (ix2 e (1 : Fin 2)) = b (ix1 e) := by
  refine (concatenate_pair_apply_right (t := S1600000x2) (s₁ := S1600000x1) (s₂ := S1600000x1) (1 : Fin 2) _ _
    concatenates_S1600000x1_S1600000x1_S1600000x2_d1 (ix2 e (1 : Fin 2) : S1600000x2.Idx) rfl rfl
    (ix2 e (0 : Fin 1) : S1600000x1.Idx) (fun b hb => ?_) rfl).trans (col_apply b e 0)
  match b with
  | ⟨0, _⟩ => rfl
  | ⟨1, _⟩ => exact absurd rfl hb

variable (m : (ℓ : Loc nD τ sig) → Buf (Elt Ideal) ℓ) (ρ : Dev nD → PrngReg)

/-! ## The first region's outputs are the reference's message stages -/

theorem msg_in_eq (c : Dev nD) :
    (dat0 (V3 m ρ) c).arrAt 4 cfg0.N = val_main_v44 (F := Ideal) (a0 m c) (a3 m c) (a4 m c) (a5 m c) := by
  rw [Edge.final_in,
    show Edge.scales (V3 m ρ) c = _ from Host.entry_scales m ρ c, show Edge.velo (V3 m ρ) c = _ from Host.entry_velo m ρ c,
    show Edge.rowsDst (V3 m ρ) c = _ from Host.entry_dst m ρ c, show Edge.rowsSrc (V3 m ρ) c = _ from Host.entry_src m ρ c]
  funext i
  obtain ⟨e, q, rfl⟩ : ∃ (e : Fin 1600000) (q : Fin 64), i = ix2 e q := ⟨i 0, i 1, eq_ix2 i⟩
  rw [Edge.msgArr_ix2, Cert.ReferenceIdeal.RefSide.msg_in_apply]
  unfold Edge.msgAt
  rw [side_left, shapeCast_a_1a_apply (a4 m c : S64.Idx → EReal) shapeCasts_S64_S1x64 0 q]

theorem msg_out_eq (c : Dev nD) :
    (dat0 (V3 m ρ) c).arrAt 5 cfg0.N = val_main_v61 (F := Ideal) (a0 m c) (a3 m c) (a4 m c) (a5 m c) := by
  rw [Edge.final_out,
    show Edge.scales (V3 m ρ) c = _ from Host.entry_scales m ρ c, show Edge.velo (V3 m ρ) c = _ from Host.entry_velo m ρ c,
    show Edge.rowsDst (V3 m ρ) c = _ from Host.entry_dst m ρ c, show Edge.rowsSrc (V3 m ρ) c = _ from Host.entry_src m ρ c]
  funext i
  obtain ⟨e, q, rfl⟩ : ∃ (e : Fin 1600000) (q : Fin 64), i = ix2 e q := ⟨i 0, i 1, eq_ix2 i⟩
  rw [Edge.msgArr_ix2, Cert.ReferenceIdeal.RefSide.msg_out_apply]
  unfold Edge.msgAt
  rw [side_right, shapeCast_a_1a_apply (a4 m c : S64.Idx → EReal) shapeCasts_S64_S1x64 0 q]

/-! ## The flows are the reference's flows -/

theorem inflow_eq (c : Dev nD) : V5 m ρ c main_v53 = val_main_v47 (F := Ideal) (a0 m c) (a3 m c) (a4 m c) (a5 m c) := by
  rw [Host.entry_inflow, msg_in_eq]
  rfl

theorem outflow_eq (c : Dev nD) : V5 m ρ c main_v56 = val_main_v64 (F := Ideal) (a0 m c) (a3 m c) (a4 m c) (a5 m c) := by
  rw [Host.entry_outflow, msg_out_eq]
  rfl

/-! ## The result -/

/-- What the second region leaves is the reference's last stage of the arguments. -/
theorem result_eq (c : Dev nD) :
    (dat1 (V5 m ρ) c).arrAt 5 cfg1.N
      = val_main_v71 (F := Ideal) (a0 m c) (a1 m c) (a2 m c) (a3 m c) (a4 m c) (a5 m c) := by
  rw [Node.final_upd,
    show Node.distr (V5 m ρ) c = _ from Host.entry_arg0 m ρ c, show Node.inflow (V5 m ρ) c = _ from inflow_eq m ρ c,
    show Node.outflow (V5 m ρ) c = _ from outflow_eq m ρ c, show Node.collision (V5 m ρ) c = _ from Host.entry_arg1 m ρ c,
    show Node.source (V5 m ρ) c = _ from Host.entry_arg2 m ρ c]
  funext i
  rw [Cert.ReferenceIdeal.RefSide.result_apply]
  rfl

/-- The idealized kernel program's run: its result array ends at the reference's last stage of the arguments, the
    arguments unchanged. -/
theorem run : θ_run defs (onTc (τ := τ) (main (F := Ideal))) ⟨m, fun _ => 0, ρ⟩ (fun r => ∀ c : Dev nD,
      r.2.mem ((c.tc : Thread nD τ).loc main_v57)
        = val_main_v71 (F := Ideal) (a0 m c) (a1 m c) (a2 m c) (a3 m c) (a4 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩)
    (Cert.KernelIdeal.Named.run_named (F := Ideal) m ρ)

end Cert.KernelIdeal.Bridge

end
-- ==== Proof.lean ====
/-
  A graph transport step on 100 000 nodes with 64 features and 1 600 000 weighted edges: clip the distribution f at
  zero; for every edge form (weight / degree at its source · velocity) · (f at its destination − f at its source), once
  with the out-degree and once with the in-degree; add the first products into the edges' destinations (the inflow)
  and the second into their sources (the outflow); and replace f by max(0, f − c·(((outflow − inflow) − collision) −
  source)).

  The kernel program computes the per-edge products in one pipelined region over 400 blocks of 4000 edges and the
  node update in a second region over 50 blocks of 2000 nodes, with the degrees, the gathers and the scatter-adds on
  the host around them; the reference is one host program. Every arithmetic operation is applied to the same operands
  in the same order on both sides, so no law of the extended reals is used and the finiteness of the inputs is never
  opened: what is shown is that each region's row blocks are the blocks of one entry-by-entry function of its whole
  input arrays and tile its output array, that the host operations around the regions are the reference's own stages,
  and hence that the kernel program's result array is the reference's last stage of the arguments.

  The three frames: the two kernel programs' are their generated frame certificates; the reference's is its generated
  run with the result dropped. The idealization rewrote no operation, so the fourth claim is trivial. The fifth is the
  bridge: both runs end at the same function of arguments that agree.
-/
import proofs.«129164_j61005715472412_1_alg».proof.Defs
import proofs.«129164_j61005715472412_1_alg».proof.Proof.Gen.Kernel
import proofs.«129164_j61005715472412_1_alg».proof.Proof.Gen.Kernel.Skeleton
import proofs.«129164_j61005715472412_1_alg».proof.Proof.Gen.Kernel.Launch
import proofs.«129164_j61005715472412_1_alg».proof.Proof.Gen.Kernel.Points
import proofs.«129164_j61005715472412_1_alg».proof.Proof.Gen.Kernel.Frame
import proofs.«129164_j61005715472412_1_alg».proof.Proof.Gen.KernelIdeal
import proofs.«129164_j61005715472412_1_alg».proof.Proof.Gen.KernelIdeal.Skeleton
import proofs.«129164_j61005715472412_1_alg».proof.Proof.Gen.KernelIdeal.Launch
import proofs.«129164_j61005715472412_1_alg».proof.Proof.Gen.KernelIdeal.Points
import proofs.«129164_j61005715472412_1_alg».proof.Proof.Gen.KernelIdeal.Frame
import proofs.«129164_j61005715472412_1_alg».proof.Proof.Gen.ReferenceIdeal
import proofs.«129164_j61005715472412_1_alg».proof.Proof.Gen.ReferenceIdeal.Run
import proofs.«129164_j61005715472412_1_alg».proof.Proof.Gen.ReferenceIdeal.Read
import proofs.«129164_j61005715472412_1_alg».proof.Proof.Gen.Pre_finite_inputs
import proofs.«129164_j61005715472412_1_alg».proof.Proof.Bridge
import Idealize.ShloMosaic.Adequacy
import Idealize.ShloMosaic.Init

noncomputable section

namespace Cert.Proof

open Idealize.ShloMosaic Idealize.SL.Sem

/-- The word-level kernel program runs, faults nowhere and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the six arguments both programs end with the same result array: the reference's last
    stage of those arguments. -/
theorem algebraic : Cert.algebraic_KernelIdeal_ReferenceIdeal := by
  intro m ρ m' ρ' _ hagree
  refine ⟨fun c => Cert.ReferenceIdeal.Read.val_main_v71 (F := Ideal) (Cert.KernelIdeal.Host.a0 m c) (Cert.KernelIdeal.Host.a1 m c)
      (Cert.KernelIdeal.Host.a2 m c) (Cert.KernelIdeal.Host.a3 m c) (Cert.KernelIdeal.Host.a4 m c) (Cert.KernelIdeal.Host.a5 m c),
    Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v71_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
